-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  main_v3
-- ==== Kernel.lean ====
abbrev S16x2048x2048 : Shape := ⟨3, ![16, 2048, 2048]⟩
abbrev S16x2048 : Shape := ⟨2, ![16, 2048]⟩
abbrev S16x128x2048 : Shape := ⟨3, ![16, 128, 2048]⟩
abbrev S16x128 : Shape := ⟨2, ![16, 128]⟩
abbrev S_ : Shape := ⟨0, ![]⟩
abbrev S16x512x256 : Shape := ⟨3, ![16, 512, 256]⟩
abbrev S16x512 : Shape := ⟨2, ![16, 512]⟩
abbrev S16x256 : Shape := ⟨2, ![16, 256]⟩
abbrev S512x256 : Shape := ⟨2, ![512, 256]⟩
abbrev S16x512x1 : Shape := ⟨3, ![16, 512, 1]⟩
abbrev S16x1x256 : Shape := ⟨3, ![16, 1, 256]⟩
abbrev S1x512x256 : Shape := ⟨3, ![1, 512, 256]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S16x2048, .f32⟩
  | .hbm, ⟨2, _⟩ => ⟨S16x2048, .f32⟩
  | .hbm, ⟨3, _⟩ => ⟨S_, .f32⟩
  | .hbm, ⟨4, _⟩ => ⟨S16x2048, .f32⟩
  | .hbm, ⟨5, _⟩ => ⟨S16x2048, .f32⟩
  | .hbm, ⟨6, _⟩ => ⟨S16x2048x2048, .f32⟩
  | .local _ .vmem, ⟨0, _⟩ => ⟨S16x128x2048, .f32⟩
  | .local _ .vmem, ⟨1, _⟩ => ⟨S16x128x2048, .f32⟩
  | .local _ .vmem, ⟨2, _⟩ => ⟨S16x128, .f32⟩
  | .local _ .vmem, ⟨3, _⟩ => ⟨S16x128, .f32⟩
  | .local _ .vmem, ⟨4, _⟩ => ⟨S16x512x256, .f32⟩
  | .local _ .vmem, ⟨5, _⟩ => ⟨S16x512x256, .f32⟩
  | .local _ .vmem, ⟨6, _⟩ => ⟨S16x512, .f32⟩
  | .local _ .vmem, ⟨7, _⟩ => ⟨S16x512, .f32⟩
  | .local _ .vmem, ⟨8, _⟩ => ⟨S16x256, .f32⟩
  | .local _ .vmem, ⟨9, _⟩ => ⟨S16x256, .f32⟩
  | .local _ .vmem, ⟨10, _⟩ => ⟨S16x512x256, .f32⟩
  | .local _ .vmem, ⟨11, _⟩ => ⟨S16x512x256, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S16x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S16x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S16x128x2048_S16x128x2048_0_0_0 : ∀ a, (![0, 0, 0] : Fin 3 → Nat) a + S16x128x2048.size a ≤ S16x128x2048.size a
  h_S16x128x2048 : 0 < S16x128x2048.numel
  reduces_S16x128x2048_S16x128 : S16x128x2048.Reduces [2] S16x128
  inb_S16x128_S16x128_0_0 : ∀ a, (![0, 0] : Fin 2 → Nat) a + S16x128.size a ≤ S16x128.size a
  h_S16x128 : 0 < S16x128.numel
  bcast_S_S16x2048 : S_.BroadcastsInDim S16x2048 (![] : Fin 0 → Fin S16x2048.rank)
  iota_S512x256_d0_w32 : S512x256.Iotas .tc 32 [0]
  iota_S512x256_d1_w32 : S512x256.Iotas .tc 32 [1]
  natLt_1_32 : 1 < 32
  inb_S16x512x256_S16x512x256_0_0_0 : ∀ a, (![0, 0, 0] : Fin 3 → Nat) a + S16x512x256.size a ≤ S16x512x256.size a
  h_S16x512x256 : 0 < S16x512x256.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S16x512_S16x512x1 : S16x512.ShapeCasts S16x512x1
  broadcasts_S16x512x1_S16x512x256 : S16x512x1.Broadcasts S16x512x256
  shapeCasts_S16x256_S16x1x256 : S16x256.ShapeCasts S16x1x256
  broadcasts_S16x1x256_S16x512x256 : S16x1x256.Broadcasts S16x512x256
  shapeCasts_S512x256_S1x512x256 : S512x256.ShapeCasts S1x512x256
  broadcasts_S1x512x256_S16x512x256 : S1x512x256.Broadcasts S16x512x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x2048.size a ≤ S16x2048x2048.size a
  hwx0_0 : ∀ i : grid0.Coords, EltTy.bits .f32 = 32 ∨ (Rect.block (s := S16x2048x2048) S16x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x2048.size a
  hwx0_1 : ∀ i : grid0.Coords, EltTy.bits .f32 = 32 ∨ (Rect.block (s := S16x2048) S16x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512x256.size a ≤ S16x2048x2048.size a
  hwx1_0 : ∀ i : grid1.Coords, EltTy.bits .f32 = 32 ∨ (Rect.block (s := S16x2048x2048) S16x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x2048.size a
  hwx1_1 : ∀ i : grid1.Coords, EltTy.bits .f32 = 32 ∨ (Rect.block (s := S16x2048) S16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x256.size a ≤ S16x2048.size a
  hwx1_2 : ∀ i : grid1.Coords, EltTy.bits .f32 = 32 ∨ (Rect.block (s := S16x2048) S16x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x512x256.size a ≤ S16x2048x2048.size a
  hwx1_3 : ∀ i : grid1.Coords, EltTy.bits .f32 = 32 ∨ (Rect.block (s := S16x2048x2048) S16x512x256.size (cc1_transform_3 i) (hinb1_3 i)).WholeWords (EltTy.packing .f32)

variable [Facts₀]

abbrev win0_0 : Pipeline.Window sig grid0 :=
  Pipeline.Window.ofSpec (Memref.whole main_arg0) S16x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S16x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S16x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S16x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S16x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S2048x2048 : Shape := ⟨2, ![2048, 2048]⟩
abbrev S1x2048x2048 : Shape := ⟨3, ![1, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S_, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S16x2048x1, .f32⟩
  | .hbm, ⟨8, _⟩ => ⟨S16x2048x2048, .f32⟩
  | .hbm, ⟨9, _⟩ => ⟨S16x2048x2048, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2048x2048, .f32⟩
  | .hbm, ⟨20, _⟩ => ⟨S1x2048x2048, .f32⟩
  | .hbm, ⟨21, _⟩ => ⟨S16x2048x2048, .f32⟩
  | .hbm, ⟨22, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)

variable [Facts₀]

class Facts : Prop extends Facts₀ where

variable [Facts]
-- ==== Proof.BitsDegreeRegion.lean ====
/-
  The first kernel region: the row-degree kernel. Its grid has 16 points; point t stages rows 128·t … 128·t+127 of
  all 16 matrices (a block of shape 16 × 128 × 2048), sums each row over its 2048 columns, and writes the 16 × 128
  sums back to the degree table's columns 128·t … 128·t+127. Stated at a PARAMETER `V`, the buffers' contents when
  the region is entered: each window's block at a point, what the body leaves in the output's staging buffer as a
  function of the input block, the body's triple, the pipeline's proof data, and the body obligation at a generic
  point. Generic in the float instance.
-/
import proofs.«150096_j66305705115958_1_alg».proof.Proof.Gen.Kernel.Launch
import proofs.«150096_j66305705115958_1_alg».proof.Proof.Gen.Kernel.Skeleton
import proofs.«150096_j66305705115958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Degree

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The whole input block and the whole output block, as rectangles. -/
abbrev rIn : Rect S16x128x2048 := Rect.unit (s := S16x128x2048) ![0, 0, 0] S16x128x2048.size inb_S16x128x2048_S16x128x2048_0_0_0
abbrev rOut : Rect S16x128 := Rect.unit (s := S16x128) ![0, 0] S16x128.size inb_S16x128_S16x128_0_0

/-- What the body leaves in the output's staging buffer, from the input block: the row sums, stored whole. -/
def rowSums (x0 : Vec F S16x128x2048 .f32) : Vec F S16x128 .f32 :=
  View.canon [⟨rOut, k0_pay1 (View.ld x0 rIn)⟩]

/-- The one store covers the output block. -/
theorem cover_out (p0 : Vec F S16x128 .f32) (y : S16x128.Idx) :
    ∃ pc ∈ ([⟨rOut, p0⟩] : List (View.Piece (Elt F) S16x128 .f32)), y ∈ pc.1.set :=
  View.cover_of_tiled [⟨rOut, p0⟩] S16x128.size (by rfl) y

set_option maxHeartbeats 1000000 in
/-- The body on whole staging memrefs, the input's at contents `x0` and the output's at anything, runs to the
    continuation holding the input's as it was and the output's at the row sums of `x0`. -/
theorem sound_kernel (c : Dev nD) (E : Set ℕ) (i : grid0.Coords) (arg1 : Memref sig .tc .vmem S16x128x2048 .f32) (harg1 : arg1.IsWhole) (arg2 : Memref sig .tc .vmem S16x128 .f32) (harg2 : arg2.IsWhole)
    (x0 : Vec F S16x128x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rowSums x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-- The proof data of this pipeline on core `c`: the arrays as the region finds them; after the body at point `t`
    the input's buffer at its block and the output's at the row sums of that block; the invariant the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => rowSums (blk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_in (c : Dev nD) (t : Fin cfg0.N) : (dat V c).after 0 t = blk V c 0 t := by dsimp only [dat]
theorem after_out (c : Dev nD) (t : Fin cfg0.N) : (dat V c).after 1 t = rowSums (blk V c 0 t) := by dsimp only [dat]

theorem before_in (c : Dev nD) (t : Fin cfg0.N) (d) : (dat V c).before 0 t d = blk V c 0 t :=
  before_in_of V (dat V c) (A_eq V c 0) (after_in V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's memref holds its block, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Degree

end
-- ==== Proof.BitsScaleRegion.lean ====
/-
  The second kernel region: the scaling kernel. Its grid is 4 × 8; point (i, j) stages the 16 × 512 × 256 tile of
  the adjacency batch at rows 512·i …, columns 256·j …, the 16 × 512 slice of the scaling table d at rows 512·i …
  and the 16 × 256 slice of the SAME table at columns 256·j …, and stores δ(row, col) − (d_row · a) · d_col into the
  result's tile. The scaling table is handed to the pipeline through two windows, so each of them holds half of the
  table's share. Stated at a PARAMETER `V`, the buffers' contents when the region is entered. Generic in the float
  instance.
-/
import proofs.«150096_j66305705115958_1_alg».proof.Proof.Gen.Kernel.Launch
import proofs.«150096_j66305705115958_1_alg».proof.Proof.Gen.Kernel.Skeleton
import proofs.«150096_j66305705115958_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scale

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is `V`'s and whose body leaves the block in
    place: the adjacency tile, the row slice of the table, the column slice of the table. -/
theorem before_adj_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_row_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_col_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole tile, the whole row slice and the whole column slice, as rectangles. -/
abbrev rTile : Rect S16x512x256 := Rect.unit (s := S16x512x256) ![0, 0, 0] S16x512x256.size inb_S16x512x256_S16x512x256_0_0_0
abbrev rRow : Rect S16x512 := Rect.unit (s := S16x512) ![0, 0] S16x512.size inb_S16x512_S16x512_0_0
abbrev rCol : Rect S16x256 := Rect.unit (s := S16x256) ![0, 0] S16x256.size inb_S16x256_S16x256_0_0

/-- What the body leaves in the result's staging buffer at grid coordinates `i`, from the three input blocks: the
    Laplacian's tile, stored whole. -/
def tileOut (i : grid1.Coords) (x0 : Vec F S16x512x256 .f32) (x1 : Vec F S16x512 .f32) (x2 : Vec F S16x256 .f32) : Vec F S16x512x256 .f32 :=
  View.canon [⟨rTile, k1_pay1 i (View.ld x0 rTile) (View.ld x1 rRow) (View.ld x2 rCol)⟩]

/-- The one store covers the result's tile. -/
theorem cover_out (p0 : Vec F S16x512x256 .f32) (y : S16x512x256.Idx) :
    ∃ pc ∈ ([⟨rTile, p0⟩] : List (View.Piece (Elt F) S16x512x256 .f32)), y ∈ pc.1.set :=
  View.cover_of_tiled [⟨rTile, p0⟩] S16x512x256.size (by rfl) y

set_option maxHeartbeats 1000000 in
/-- The body on whole staging memrefs, the inputs' at contents `x0`, `x1`, `x2` and the output's at anything, runs to
    the continuation holding the inputs' as they were and the output's at `tileOut` of them. -/
theorem sound_kernel (c : Dev nD) (E : Set ℕ) (i : grid1.Coords)
    (arg2 : Memref sig .tc .vmem S16x512x256 .f32) (harg2 : arg2.IsWhole) (arg3 : Memref sig .tc .vmem S16x512 .f32) (harg3 : arg3.IsWhole)
    (arg4 : Memref sig .tc .vmem S16x256 .f32) (harg4 : arg4.IsWhole) (arg5 : Memref sig .tc .vmem S16x512x256 .f32) (harg5 : arg5.IsWhole)
    (x0 : Vec F S16x512x256 .f32) (x1 : Vec F S16x512 .f32) (x2 : Vec F S16x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut i x0 x1 x2)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-- The proof data of this pipeline on core `c`: the arrays as the region finds them; after the body at point `t`
    each input's buffer at its block and the output's at `tileOut` of the input blocks; the invariant the scoped rest
    and the generator register, untouched; nothing owed; the adjacency batch at the full share, the scaling table's
    share halved between its two windows. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => tileOut (grid1.coords t) (blk V c 0 t) (blk V c 1 t) (blk V c 2 t)
  Φ _ := Pipeline.ΦA spec1 c
  q w := match w with
    | ⟨1, _⟩ => fullShare.left
    | ⟨2, _⟩ => fullShare.right
    | _ => fullShare
  owed _ := 0

theorem A_eq (c : Dev nD) (w : Fin cfg1.W) : (dat V c).A w = V c (Pipeline.arrRef spec1 w) := by
  dsimp only [dat]

theorem after_adj (c : Dev nD) (t : Fin cfg1.N) : (dat V c).after 0 t = blk V c 0 t := by dsimp only [dat]
theorem after_row (c : Dev nD) (t : Fin cfg1.N) : (dat V c).after 1 t = blk V c 1 t := by dsimp only [dat]
theorem after_col (c : Dev nD) (t : Fin cfg1.N) : (dat V c).after 2 t = blk V c 2 t := by dsimp only [dat]
theorem after_out (c : Dev nD) (t : Fin cfg1.N) :
    (dat V c).after 3 t = tileOut (grid1.coords t) (blk V c 0 t) (blk V c 1 t) (blk V c 2 t) := by dsimp only [dat]

/-- The shares the core holds the four arrays at. -/
theorem share_adj (c : Dev nD) : (dat V c).share 0 = fullShare := rfl
theorem share_row (c : Dev nD) : (dat V c).share 1 = fullShare.left := rfl
theorem share_col (c : Dev nD) : (dat V c).share 2 = fullShare.right := rfl
theorem share_out (c : Dev nD) : (dat V c).share 3 = fullShare := rfl

theorem before_adj (c : Dev nD) (t : Fin cfg1.N) (d) : (dat V c).before 0 t d = blk V c 0 t :=
  before_adj_of V (dat V c) (A_eq V c 0) (after_adj V c) t d
theorem before_row (c : Dev nD) (t : Fin cfg1.N) (d) : (dat V c).before 1 t d = blk V c 1 t :=
  before_row_of V (dat V c) (A_eq V c 1) (after_row V c) t d
theorem before_col (c : Dev nD) (t : Fin cfg1.N) (d) : (dat V c).before 2 t d = blk V c 2 t :=
  before_col_of V (dat V c) (A_eq V c 2) (after_col V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_row, before_col]
  rw [show (dat V c).Φ t.succ = (dat V c).Φ t.castSucc from rfl,
    show (dat V c).owesAt () t.succ = (dat V c).owesAt () t.castSucc from rfl,
    after_adj, after_row, after_col, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W1, bigSep_W1]
  exact sound_body V c t

end Cert.Kernel.Scale

end
-- ==== Proof.BitsWholeRun.lean ====
/-
  The whole program's run. @main is: the degree region, four host operations (square root, the literal one, its
  broadcast, the quotient), the scaling region. The buffers' contents at each boundary are a fold from the launch
  memory: after the degree region the degree table holds what its write-backs leave; after the host operations the
  scaling table holds the quotient; after the scaling region the result holds what its write-backs leave; every
  other buffer is as before. Each region is entered from "every unscoped buffer at the boundary's contents" and
  left at the next boundary's. The scaling region holds the scaling table through two windows: at its entry the
  table's full share is halved between them, and at its exit the halves (both at the entry contents: inputs are
  never written) are joined again. The run's post: every unscoped buffer ends at the last boundary's contents.
  Generic in the float instance.
-/
import proofs.«150096_j66305705115958_1_alg».proof.Proof.BitsDegreeRegion
import proofs.«150096_j66305705115958_1_alg».proof.Proof.BitsScaleRegion

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the degree region's entry). -/
abbrev W0 : Dev nD → Valuation τ sig (Elt F) := fun c b => m (c, b)
abbrev V0 : (c : Dev nD) → (b : Ref sig .tc) → Buf (Elt F) ((c : Thread nD τ).loc b) := fun c b => W0 m c b

/-- After the degree region: its arrays at what the pipeline leaves, every other buffer as entered. -/
def W1 (c : Dev nD) : Valuation τ sig (Elt F) :=
  Pipeline.withArrays spec0 c (W0 m c) fun w => (Degree.dat (V0 m) c).arrAt w cfg0.N
theorem W1_arr (c : Dev nD) (w : Fin cfg0.W) :
    W1 m c (Proc.devRef .tc (Pipeline.arrRef spec0 w)) = (Degree.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem arr_after_degree (c : Dev nD) (w : Fin cfg0.W) : (Degree.dat (V0 m) c).arrAt w cfg0.N = V1 m c (Pipeline.arrRef spec0 w) :=
  (W1_arr m c w).symm
theorem rest_after_degree (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations (the scaling region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the scaling region: the result at what the pipeline leaves, every other buffer as entered. -/
def W3 (c : Dev nD) : Valuation τ sig (Elt F) :=
  Function.update (W2 m c) (Proc.devRef .tc main_v4) ((Scale.dat (V2 m) c).arrAt 3 cfg1.N)
theorem W3_result (c : Dev nD) : W3 m c (Proc.devRef .tc main_v4) = (Scale.dat (V2 m) c).arrAt 3 cfg1.N := by
  unfold W3; exact Function.update_self ..
theorem W3_of_ne (c : Dev nD) (b : Ref sig .tc) (hb : b ≠ main_v4) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b

/-! ## The scaling region's arrays: three buffers behind four windows -/

section Arrays

variable (V : (c : Dev nD) → (b : Ref sig .tc) → Buf (Elt F) ((c : Thread nD τ).loc b))

/-- The distinct buffers behind the scaling region's windows are the adjacency batch, the scaling table and the result. -/
theorem arrBufs_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_arg0) ↦{fullShare} U main_arg0) ∗ (((c : Thread nD τ).loc main_v3) ↦{fullShare} U main_v3)
          ∗ (((c : Thread nD τ).loc main_v4) ↦{fullShare} U main_v4)) := by
  unfold Pipeline.arrBufs
  exact bigSep_eq_bigSepL_of_eq [main_arg0, main_v3, main_v4] (by decide) (by decide) _

/-- The scaling region's windowed arrays, window by window: the adjacency batch and the result at the full share, the
    scaling table at one half for its row window and at the other for its column window. -/
theorem arrays_eq (c : Dev nD) (G : (w : Fin cfg1.W) → Buf (Elt F) ((cfg1.win w).arr.view.loc (c : Thread nD τ))) :
    ((Scale.dat V c).arrays G : sProp 𝕄)
      = iprop((((c : Thread nD τ).loc main_arg0) ↦{fullShare} G 0) ∗ (((c : Thread nD τ).loc main_v3) ↦{fullShare.left} G 1)
          ∗ (((c : Thread nD τ).loc main_v3) ↦{fullShare.right} G 2) ∗ (((c : Thread nD τ).loc main_v4) ↦{fullShare} G 3)) := by
  unfold Dat.arrays
  rw [bigSep_W1, (arr_whole1 0).set_eq_univ, (arr_whole1 1).set_eq_univ, (arr_whole1 3).set_eq_univ]
  rfl

/-- ENTRY of the scaling region, the arrays' part: a core's unscoped buffers at contents `U` are the region's windowed
    arrays at the proof data's entry contents — the scaling table's full share halved between its two windows — and the
    unscoped rest. -/
theorem arrays_of_unscopedBufs (c : Dev nD) :
    (unscopedBufs c (V c) : sProp 𝕄)
      ⊢ iprop((Scale.dat V c).arrays ((Scale.dat V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs_eq, arrays_eq]
  iintro ⟨⟨H0, H3, H4⟩, Hr⟩
  ihave Hs := (pointsTo_share (PosShare.mem_left_op_right fullShare)).1 $$ H3
  icases Hs with ⟨Ha, Hb⟩
  isplitr [Hr]
  · isplitl [H0]; · iexact H0
    isplitl [Ha]; · iexact Ha
    isplitl [Hb]; · iexact Hb
    iexact H4
  iexact Hr

/-- EXIT of the scaling region, the arrays' part: the windowed arrays after the write-backs — the inputs as entered,
    so the scaling table's two halves at one contents — and the unscoped rest at `U` are the core's unscoped buffers
    at any valuation `U'` that has the result at what the write-backs leave and agrees with `U` elsewhere. -/
theorem unscopedBufs_of_arrays (c : Dev nD) (U' : (b : Ref sig .tc) → Buf (Elt F) ((c : Thread nD τ).loc b))
    (hres : U' main_v4 = (Scale.dat V c).arrAt 3 cfg1.N) (hrest : ∀ b : Ref sig .tc, b ≠ main_v4 → U' b = V c b) :
    iprop((Scale.dat V c).arrays ((Scale.dat V c).arrAt · cfg1.N) ∗ Pipeline.unscopedRest spec1 c (V c))
      ⊢ (unscopedBufs c U' : sProp 𝕄) := by
  have hs : (unscopedBufs c U' : sProp 𝕄) = iprop(Pipeline.arrBufs spec1 c U' ∗ Pipeline.unscopedRest spec1 c U') :=
    Pipeline.unscopedBufs_split₀ cfgs 1 winFacts₀1.arr_unscoped c U'
  rw [hs, arrBufs_eq, arrays_eq]
  have h0 : (Scale.dat V c).arrAt 0 cfg1.N = U' main_arg0 :=
    (((Scale.dat V c).arrAt_in 0 rfl _).trans (Scale.A_eq V c 0)).trans (hrest main_arg0 (by decide)).symm
  have h1 : (Scale.dat V c).arrAt 1 cfg1.N = U' main_v3 :=
    (((Scale.dat V c).arrAt_in 1 rfl _).trans (Scale.A_eq V c 1)).trans (hrest main_v3 (by decide)).symm
  have h2 : (Scale.dat V c).arrAt 2 cfg1.N = U' main_v3 :=
    (((Scale.dat V c).arrAt_in 2 rfl _).trans (Scale.A_eq V c 2)).trans (hrest main_v3 (by decide)).symm
  have hr : (Pipeline.unscopedRest (Ix := Unit) (Name := ℕ) (U := UR sig nD τ) (Lvl := ℕ) spec1 c (V c) : sProp 𝕄)
      = Pipeline.unscopedRest spec1 c U' := by
    unfold Pipeline.unscopedRest
    exact bigSep_congr fun b hb => by
      rw [hrest b (fun e => (Finset.mem_sdiff.mp hb).2 (by rw [e]; decide))]
  rw [h0, h1, h2, ← hres, hr]
  iintro ⟨⟨H0, Ha, Hb, H4⟩, Hr⟩
  isplitr [Hr]
  · isplitl [H0]; · iexact H0
    isplitl [Ha Hb]
    · iapply (pointsTo_share (PosShare.mem_left_op_right fullShare)).2
      isplitl [Ha]; · iexact Ha
      iexact Hb
    iexact H4
  iexact Hr

end Arrays

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Degree.dat (V0 m) c
  | ⟨1, _⟩ => fun c => Scale.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

/-- No host operation allocates a buffer. -/
theorem ops_fresh : (hostOps1 : List (HloOp τ sig (Elt F))).Forall fun op => op.fresh = ∅ := by
  simp only [List.Forall]; repeat' constructor

/-- The host operations as a segment over the unscoped references from the contents `W1`, `R` riding along. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp ops_fresh) op h) (W1 m) R

/-- The last thread state without the dues: every unscoped buffer at the last boundary's contents, the generator
    register at some state. -/
abbrev Tend (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The degree region over the thread state: entered from every unscoped buffer at `W0`, left at `W1`. -/
def degreeSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Degree.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (arr_after_degree m c) (rest_after_degree m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state: entered from every unscoped buffer at `W2`, left at `W3`. Its windows
    share the scaling table, so its arrays are sorted out of the unscoped buffers, and put back, by this certificate's
    own two lemmas. -/
def scaleSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Scale.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c))
        ⊢ (unscopedBufs c (V3 m c) : sProp 𝕄) :=
      unscopedBufs_of_arrays (V2 m) c (V3 m c) (W3_result m c) (fun b hb => W3_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .region (degreeSeg m), .host (hostSeg m), .region (scaleSeg m) ]
/-- @main IS the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main on the TensorCores terminates,
    nothing faulting, and every final state has every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the last boundary holds -/

/-- The adjacency batch reaches the scaling region as launched: the degree region reads it through an input window
    and no host operation writes it; -/
theorem W2_adj (c : Dev nD) : W2 m c (Proc.devRef .tc main_arg0) = m ((c : Thread nD τ).loc main_arg0) :=
  calc W2 m c (Proc.devRef .tc main_arg0)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m c (Proc.devRef .tc main_arg0) := (W1_arr m c 0).trans (((Degree.dat (V0 m) c).arrAt_in 0 rfl _).trans (Degree.A_eq (V0 m) c 0))
    _ = m ((c : Thread nD τ).loc main_arg0) := rfl

/-- and it reaches the end as launched: the scaling region reads it through an input window too. -/
theorem W3_adj (c : Dev nD) : W3 m c (Proc.devRef .tc main_arg0) = m ((c : Thread nD τ).loc main_arg0) :=
  (W3_of_ne m c main_arg0 (by decide)).trans (W2_adj m c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_adj m c)) (run_all m ρ)

end Cert.Kernel.Whole

end
-- ==== Proof.DegreeRegion.lean ====
/-
  The first kernel region: the row-degree kernel. Its grid has 16 points; point t stages rows 128·t … 128·t+127 of
  all 16 matrices (a block of shape 16 × 128 × 2048), sums each row over its 2048 columns, and writes the 16 × 128
  sums back to the degree table's columns 128·t … 128·t+127. Stated at a PARAMETER `V`, the buffers' contents when
  the region is entered: each window's block at a point, what the body leaves in the output's staging buffer as a
  function of the input block, the body's triple, the pipeline's proof data, and the body obligation at a generic
  point. Generic in the float instance.
-/
import proofs.«150096_j66305705115958_1_alg».proof.Proof.Gen.KernelIdeal.Launch
import proofs.«150096_j66305705115958_1_alg».proof.Proof.Gen.KernelIdeal.Skeleton
import proofs.«150096_j66305705115958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Degree

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The whole input block and the whole output block, as rectangles. -/
abbrev rIn : Rect S16x128x2048 := Rect.unit (s := S16x128x2048) ![0, 0, 0] S16x128x2048.size inb_S16x128x2048_S16x128x2048_0_0_0
abbrev rOut : Rect S16x128 := Rect.unit (s := S16x128) ![0, 0] S16x128.size inb_S16x128_S16x128_0_0

/-- What the body leaves in the output's staging buffer, from the input block: the row sums, stored whole. -/
def rowSums (x0 : Vec F S16x128x2048 .f32) : Vec F S16x128 .f32 :=
  View.canon [⟨rOut, k0_pay1 (View.ld x0 rIn)⟩]

/-- The one store covers the output block. -/
theorem cover_out (p0 : Vec F S16x128 .f32) (y : S16x128.Idx) :
    ∃ pc ∈ ([⟨rOut, p0⟩] : List (View.Piece (Elt F) S16x128 .f32)), y ∈ pc.1.set :=
  View.cover_of_tiled [⟨rOut, p0⟩] S16x128.size (by rfl) y

set_option maxHeartbeats 1000000 in
/-- The body on whole staging memrefs, the input's at contents `x0` and the output's at anything, runs to the
    continuation holding the input's as it was and the output's at the row sums of `x0`. -/
theorem sound_kernel (c : Dev nD) (E : Set ℕ) (i : grid0.Coords) (arg1 : Memref sig .tc .vmem S16x128x2048 .f32) (harg1 : arg1.IsWhole) (arg2 : Memref sig .tc .vmem S16x128 .f32) (harg2 : arg2.IsWhole)
    (x0 : Vec F S16x128x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rowSums x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-- The proof data of this pipeline on core `c`: the arrays as the region finds them; after the body at point `t`
    the input's buffer at its block and the output's at the row sums of that block; the invariant the scoped rest
    and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => rowSums (blk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_in (c : Dev nD) (t : Fin cfg0.N) : (dat V c).after 0 t = blk V c 0 t := by dsimp only [dat]
theorem after_out (c : Dev nD) (t : Fin cfg0.N) : (dat V c).after 1 t = rowSums (blk V c 0 t) := by dsimp only [dat]

theorem before_in (c : Dev nD) (t : Fin cfg0.N) (d) : (dat V c).before 0 t d = blk V c 0 t :=
  before_in_of V (dat V c) (A_eq V c 0) (after_in V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's memref holds its block, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_in, after_out]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Degree

end
-- ==== Proof.ScaleRegion.lean ====
/-
  The second kernel region: the scaling kernel. Its grid is 4 × 8; point (i, j) stages the 16 × 512 × 256 tile of
  the adjacency batch at rows 512·i …, columns 256·j …, the 16 × 512 slice of the scaling table d at rows 512·i …
  and the 16 × 256 slice of the SAME table at columns 256·j …, and stores δ(row, col) − (d_row · a) · d_col into the
  result's tile. The scaling table is handed to the pipeline through two windows, so each of them holds half of the
  table's share. Stated at a PARAMETER `V`, the buffers' contents when the region is entered. Generic in the float
  instance.
-/
import proofs.«150096_j66305705115958_1_alg».proof.Proof.Gen.KernelIdeal.Launch
import proofs.«150096_j66305705115958_1_alg».proof.Proof.Gen.KernelIdeal.Skeleton
import proofs.«150096_j66305705115958_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scale

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is `V`'s and whose body leaves the block in
    place: the adjacency tile, the row slice of the table, the column slice of the table. -/
theorem before_adj_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_row_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_col_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole tile, the whole row slice and the whole column slice, as rectangles. -/
abbrev rTile : Rect S16x512x256 := Rect.unit (s := S16x512x256) ![0, 0, 0] S16x512x256.size inb_S16x512x256_S16x512x256_0_0_0
abbrev rRow : Rect S16x512 := Rect.unit (s := S16x512) ![0, 0] S16x512.size inb_S16x512_S16x512_0_0
abbrev rCol : Rect S16x256 := Rect.unit (s := S16x256) ![0, 0] S16x256.size inb_S16x256_S16x256_0_0

/-- What the body leaves in the result's staging buffer at grid coordinates `i`, from the three input blocks: the
    Laplacian's tile, stored whole. -/
def tileOut (i : grid1.Coords) (x0 : Vec F S16x512x256 .f32) (x1 : Vec F S16x512 .f32) (x2 : Vec F S16x256 .f32) : Vec F S16x512x256 .f32 :=
  View.canon [⟨rTile, k1_pay1 i (View.ld x0 rTile) (View.ld x1 rRow) (View.ld x2 rCol)⟩]

/-- The one store covers the result's tile. -/
theorem cover_out (p0 : Vec F S16x512x256 .f32) (y : S16x512x256.Idx) :
    ∃ pc ∈ ([⟨rTile, p0⟩] : List (View.Piece (Elt F) S16x512x256 .f32)), y ∈ pc.1.set :=
  View.cover_of_tiled [⟨rTile, p0⟩] S16x512x256.size (by rfl) y

set_option maxHeartbeats 1000000 in
/-- The body on whole staging memrefs, the inputs' at contents `x0`, `x1`, `x2` and the output's at anything, runs to
    the continuation holding the inputs' as they were and the output's at `tileOut` of them. -/
theorem sound_kernel (c : Dev nD) (E : Set ℕ) (i : grid1.Coords)
    (arg2 : Memref sig .tc .vmem S16x512x256 .f32) (harg2 : arg2.IsWhole) (arg3 : Memref sig .tc .vmem S16x512 .f32) (harg3 : arg3.IsWhole)
    (arg4 : Memref sig .tc .vmem S16x256 .f32) (harg4 : arg4.IsWhole) (arg5 : Memref sig .tc .vmem S16x512x256 .f32) (harg5 : arg5.IsWhole)
    (x0 : Vec F S16x512x256 .f32) (x1 : Vec F S16x512 .f32) (x2 : Vec F S16x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut i x0 x1 x2)) -∗ K ⟨⟩))
      ⊢ wp frame (wpE (defs₀ (F := F)) Variants.none c none) E (cc1_kernel i arg2 harg2 arg3 harg3 arg4 harg4 arg5 harg5) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-- The proof data of this pipeline on core `c`: the arrays as the region finds them; after the body at point `t`
    each input's buffer at its block and the output's at `tileOut` of the input blocks; the invariant the scoped rest
    and the generator register, untouched; nothing owed; the adjacency batch at the full share, the scaling table's
    share halved between its two windows. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => tileOut (grid1.coords t) (blk V c 0 t) (blk V c 1 t) (blk V c 2 t)
  Φ _ := Pipeline.ΦA spec1 c
  q w := match w with
    | ⟨1, _⟩ => fullShare.left
    | ⟨2, _⟩ => fullShare.right
    | _ => fullShare
  owed _ := 0

theorem A_eq (c : Dev nD) (w : Fin cfg1.W) : (dat V c).A w = V c (Pipeline.arrRef spec1 w) := by
  dsimp only [dat]

theorem after_adj (c : Dev nD) (t : Fin cfg1.N) : (dat V c).after 0 t = blk V c 0 t := by dsimp only [dat]
theorem after_row (c : Dev nD) (t : Fin cfg1.N) : (dat V c).after 1 t = blk V c 1 t := by dsimp only [dat]
theorem after_col (c : Dev nD) (t : Fin cfg1.N) : (dat V c).after 2 t = blk V c 2 t := by dsimp only [dat]
theorem after_out (c : Dev nD) (t : Fin cfg1.N) :
    (dat V c).after 3 t = tileOut (grid1.coords t) (blk V c 0 t) (blk V c 1 t) (blk V c 2 t) := by dsimp only [dat]

/-- The shares the core holds the four arrays at. -/
theorem share_adj (c : Dev nD) : (dat V c).share 0 = fullShare := rfl
theorem share_row (c : Dev nD) : (dat V c).share 1 = fullShare.left := rfl
theorem share_col (c : Dev nD) : (dat V c).share 2 = fullShare.right := rfl
theorem share_out (c : Dev nD) : (dat V c).share 3 = fullShare := rfl

theorem before_adj (c : Dev nD) (t : Fin cfg1.N) (d) : (dat V c).before 0 t d = blk V c 0 t :=
  before_adj_of V (dat V c) (A_eq V c 0) (after_adj V c) t d
theorem before_row (c : Dev nD) (t : Fin cfg1.N) (d) : (dat V c).before 1 t d = blk V c 1 t :=
  before_row_of V (dat V c) (A_eq V c 1) (after_row V c) t d
theorem before_col (c : Dev nD) (t : Fin cfg1.N) (d) : (dat V c).before 2 t d = blk V c 2 t :=
  before_col_of V (dat V c) (A_eq V c 2) (after_col V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_row, before_col]
  rw [show (dat V c).Φ t.succ = (dat V c).Φ t.castSucc from rfl,
    show (dat V c).owesAt () t.succ = (dat V c).owesAt () t.castSucc from rfl,
    after_adj, after_row, after_col, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.Scale

end
-- ==== Proof.WholeRun.lean ====
/-
  The whole program's run. @main is: the degree region, four host operations (square root, the literal one, its
  broadcast, the quotient), the scaling region. The buffers' contents at each boundary are a fold from the launch
  memory: after the degree region the degree table holds what its write-backs leave; after the host operations the
  scaling table holds the quotient; after the scaling region the result holds what its write-backs leave; every
  other buffer is as before. Each region is entered from "every unscoped buffer at the boundary's contents" and
  left at the next boundary's. The scaling region holds the scaling table through two windows: at its entry the
  table's full share is halved between them, and at its exit the halves (both at the entry contents: inputs are
  never written) are joined again. The run's post: every unscoped buffer ends at the last boundary's contents.
  Generic in the float instance.
-/
import proofs.«150096_j66305705115958_1_alg».proof.Proof.DegreeRegion
import proofs.«150096_j66305705115958_1_alg».proof.Proof.ScaleRegion

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the degree region's entry). -/
abbrev W0 : Dev nD → Valuation τ sig (Elt F) := fun c b => m (c, b)
abbrev V0 : (c : Dev nD) → (b : Ref sig .tc) → Buf (Elt F) ((c : Thread nD τ).loc b) := fun c b => W0 m c b

/-- After the degree region: its arrays at what the pipeline leaves, every other buffer as entered. -/
def W1 (c : Dev nD) : Valuation τ sig (Elt F) :=
  Pipeline.withArrays spec0 c (W0 m c) fun w => (Degree.dat (V0 m) c).arrAt w cfg0.N
theorem W1_arr (c : Dev nD) (w : Fin cfg0.W) :
    W1 m c (Proc.devRef .tc (Pipeline.arrRef spec0 w)) = (Degree.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem arr_after_degree (c : Dev nD) (w : Fin cfg0.W) : (Degree.dat (V0 m) c).arrAt w cfg0.N = V1 m c (Pipeline.arrRef spec0 w) :=
  (W1_arr m c w).symm
theorem rest_after_degree (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host operations (the scaling region's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the scaling region: the result at what the pipeline leaves, every other buffer as entered. -/
def W3 (c : Dev nD) : Valuation τ sig (Elt F) :=
  Function.update (W2 m c) (Proc.devRef .tc main_v4) ((Scale.dat (V2 m) c).arrAt 3 cfg1.N)
theorem W3_result (c : Dev nD) : W3 m c (Proc.devRef .tc main_v4) = (Scale.dat (V2 m) c).arrAt 3 cfg1.N := by
  unfold W3; exact Function.update_self ..
theorem W3_of_ne (c : Dev nD) (b : Ref sig .tc) (hb : b ≠ main_v4) :
    W3 m c (Proc.devRef .tc b) = W2 m c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m c b

/-! ## The scaling region's arrays: three buffers behind four windows -/

section Arrays

variable (V : (c : Dev nD) → (b : Ref sig .tc) → Buf (Elt F) ((c : Thread nD τ).loc b))

/-- The distinct buffers behind the scaling region's windows are the adjacency batch, the scaling table and the result. -/
theorem arrBufs_eq (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_arg0) ↦{fullShare} U main_arg0) ∗ (((c : Thread nD τ).loc main_v3) ↦{fullShare} U main_v3)
          ∗ (((c : Thread nD τ).loc main_v4) ↦{fullShare} U main_v4)) := by
  unfold Pipeline.arrBufs
  exact bigSep_eq_bigSepL_of_eq [main_arg0, main_v3, main_v4] (by decide) (by decide) _

/-- The scaling region's windowed arrays, window by window: the adjacency batch and the result at the full share, the
    scaling table at one half for its row window and at the other for its column window. -/
theorem arrays_eq (c : Dev nD) (G : (w : Fin cfg1.W) → Buf (Elt F) ((cfg1.win w).arr.view.loc (c : Thread nD τ))) :
    ((Scale.dat V c).arrays G : sProp 𝕄)
      = iprop((((c : Thread nD τ).loc main_arg0) ↦{fullShare} G 0) ∗ (((c : Thread nD τ).loc main_v3) ↦{fullShare.left} G 1)
          ∗ (((c : Thread nD τ).loc main_v3) ↦{fullShare.right} G 2) ∗ (((c : Thread nD τ).loc main_v4) ↦{fullShare} G 3)) := by
  unfold Dat.arrays
  rw [bigSep_W1, (arr_whole1 0).set_eq_univ, (arr_whole1 1).set_eq_univ, (arr_whole1 3).set_eq_univ]
  rfl

/-- ENTRY of the scaling region, the arrays' part: a core's unscoped buffers at contents `U` are the region's windowed
    arrays at the proof data's entry contents — the scaling table's full share halved between its two windows — and the
    unscoped rest. -/
theorem arrays_of_unscopedBufs (c : Dev nD) :
    (unscopedBufs c (V c) : sProp 𝕄)
      ⊢ iprop((Scale.dat V c).arrays ((Scale.dat V c).arrAt · 0) ∗ Pipeline.unscopedRest spec1 c (V c)) := by
  have hs : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [hs, arrBufs_eq, arrays_eq]
  iintro ⟨⟨H0, H3, H4⟩, Hr⟩
  ihave Hs := (pointsTo_share (PosShare.mem_left_op_right fullShare)).1 $$ H3
  icases Hs with ⟨Ha, Hb⟩
  isplitr [Hr]
  · isplitl [H0]; · iexact H0
    isplitl [Ha]; · iexact Ha
    isplitl [Hb]; · iexact Hb
    iexact H4
  iexact Hr

/-- EXIT of the scaling region, the arrays' part: the windowed arrays after the write-backs — the inputs as entered,
    so the scaling table's two halves at one contents — and the unscoped rest at `U` are the core's unscoped buffers
    at any valuation `U'` that has the result at what the write-backs leave and agrees with `U` elsewhere. -/
theorem unscopedBufs_of_arrays (c : Dev nD) (U' : (b : Ref sig .tc) → Buf (Elt F) ((c : Thread nD τ).loc b))
    (hres : U' main_v4 = (Scale.dat V c).arrAt 3 cfg1.N) (hrest : ∀ b : Ref sig .tc, b ≠ main_v4 → U' b = V c b) :
    iprop((Scale.dat V c).arrays ((Scale.dat V c).arrAt · cfg1.N) ∗ Pipeline.unscopedRest spec1 c (V c))
      ⊢ (unscopedBufs c U' : sProp 𝕄) := by
  have hs : (unscopedBufs c U' : sProp 𝕄) = iprop(Pipeline.arrBufs spec1 c U' ∗ Pipeline.unscopedRest spec1 c U') :=
    Pipeline.unscopedBufs_split₀ cfgs 1 winFacts₀1.arr_unscoped c U'
  rw [hs, arrBufs_eq, arrays_eq]
  have h0 : (Scale.dat V c).arrAt 0 cfg1.N = U' main_arg0 :=
    (((Scale.dat V c).arrAt_in 0 rfl _).trans (Scale.A_eq V c 0)).trans (hrest main_arg0 (by decide)).symm
  have h1 : (Scale.dat V c).arrAt 1 cfg1.N = U' main_v3 :=
    (((Scale.dat V c).arrAt_in 1 rfl _).trans (Scale.A_eq V c 1)).trans (hrest main_v3 (by decide)).symm
  have h2 : (Scale.dat V c).arrAt 2 cfg1.N = U' main_v3 :=
    (((Scale.dat V c).arrAt_in 2 rfl _).trans (Scale.A_eq V c 2)).trans (hrest main_v3 (by decide)).symm
  have hr : (Pipeline.unscopedRest (Ix := Unit) (Name := ℕ) (U := UR sig nD τ) (Lvl := ℕ) spec1 c (V c) : sProp 𝕄)
      = Pipeline.unscopedRest spec1 c U' := by
    unfold Pipeline.unscopedRest
    exact bigSep_congr fun b hb => by
      rw [hrest b (fun e => (Finset.mem_sdiff.mp hb).2 (by rw [e]; decide))]
  rw [h0, h1, h2, ← hres, hr]
  iintro ⟨⟨H0, Ha, Hb, H4⟩, Hr⟩
  isplitr [Hr]
  · isplitl [H0]; · iexact H0
    isplitl [Ha Hb]
    · iapply (pointsTo_share (PosShare.mem_left_op_right fullShare)).2
      isplitl [Ha]; · iexact Ha
      iexact Hb
    iexact H4
  iexact Hr

end Arrays

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Degree.dat (V0 m) c
  | ⟨1, _⟩ => fun c => Scale.dat (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)

/-- No host operation allocates a buffer. -/
theorem ops_fresh : (hostOps1 : List (HloOp τ sig (Elt F))).Forall fun op => op.fresh = ∅ := by
  simp only [List.Forall]; repeat' constructor

/-- The host operations as a segment over the unscoped references from the contents `W1`, `R` riding along. -/
abbrev hostSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp ops_fresh) op h) (W1 m) R

/-- The last thread state without the dues: every unscoped buffer at the last boundary's contents, the generator
    register at some state. -/
abbrev Tend (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The degree region over the thread state: entered from every unscoped buffer at `W0`, left at `W1`. -/
def degreeSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Degree.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (arr_after_degree m c) (rest_after_degree m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state: entered from every unscoped buffer at `W2`, left at `W3`. Its windows
    share the scaling table, so its arrays are sorted out of the unscoped buffers, and put back, by this certificate's
    own two lemmas. -/
def scaleSeg : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Scale.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (V2 m c))
        ⊢ (unscopedBufs c (V3 m c) : sProp 𝕄) :=
      unscopedBufs_of_arrays (V2 m) c (V3 m c) (W3_result m c) (fun b hb => W3_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .region (degreeSeg m), .host (hostSeg m), .region (scaleSeg m) ]
/-- @main IS the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters, every weakly fair execution of @main on the TensorCores terminates,
    nothing faulting, and every final state has every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the last boundary holds -/

/-- The adjacency batch reaches the scaling region as launched: the degree region reads it through an input window
    and no host operation writes it; -/
theorem W2_adj (c : Dev nD) : W2 m c (Proc.devRef .tc main_arg0) = m ((c : Thread nD τ).loc main_arg0) :=
  calc W2 m c (Proc.devRef .tc main_arg0)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m c (Proc.devRef .tc main_arg0) := (W1_arr m c 0).trans (((Degree.dat (V0 m) c).arrAt_in 0 rfl _).trans (Degree.A_eq (V0 m) c 0))
    _ = m ((c : Thread nD τ).loc main_arg0) := rfl

/-- and it reaches the end as launched: the scaling region reads it through an input window too. -/
theorem W3_adj (c : Dev nD) : W3 m c (Proc.devRef .tc main_arg0) = m ((c : Thread nD τ).loc main_arg0) :=
  (W3_of_ne m c main_arg0 (by decide)).trans (W2_adj m c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_adj m c)) (run_all m ρ)

end Cert.KernelIdeal.Whole

end
-- ==== Proof.Spec.lean ====
/-
  The normalized graph Laplacian as ONE function of the adjacency array, index by index, on the extended reals:
  for a batch of 16 matrices A[b] of size 2048 × 2048,
      deg[b, i] = Σ_k A[b, i, k]            (the row sums)
      d[b, i]   = 1 / sqrt (deg[b, i])       (the host's quotient and square root, kept as ONE opaque chain)
      L[b, i, j] = δ(i, j) − (d[b, i] · A[b, i, j]) · d[b, j].
  Both programs compute exactly this, with the products grouped this way; no algebraic law is needed beyond
  reading each program's sum as the plain finite sum.
-/
import Idealize.ShloMosaic.PureOps.Ideal
import Idealize.ShloMosaic.PureOps.Ideal.Laws
import Idealize.ShloMosaic.Lib.ValueIdx

noncomputable section

namespace Cert.Laplacian

open Idealize.ShloMosaic Idealize.ShloMosaic.ValueIdx

/-- The adjacency batch's shape, the degree table's shape, the scalar shape. -/
abbrev SA : Shape := ⟨3, ![16, 2048, 2048]⟩
abbrev SD : Shape := ⟨2, ![16, 2048]⟩
abbrev S0 : Shape := ⟨0, ![]⟩

/-- The degree of row `i` of matrix `b`: the sum of the row's entries. -/
def deg (A : FVec Ideal SA .f32) (b : Fin 16) (i : Fin 2048) : EReal := ∑ k : Fin 2048, A (ix3 b i k)

/-- The degree table. -/
def degV (A : FVec Ideal SA .f32) : FVec Ideal SD .f32 := fun p => deg A (p 0) (p 1)

/-- The scaling table `1 / sqrt deg`, as the host computes it from a degree table: the literal `1.0` broadcast,
    divided by the square root. Kept as one chain: both programs apply these same operations. -/
def scaleOf (bc : S0.BroadcastsInDim SD (![] : Fin 0 → Fin SD.rank)) (dg : FVec Ideal SD .f32) : FVec Ideal SD .f32 :=
  Host.divf (F := Ideal) (broadcastInDim SD ![] bc (constant (F := Ideal) S0 .f32 0x3F800000#32)) (Host.sqrt (F := Ideal) dg)

/-- The identity matrix's entry. -/
def eye (r c : ℕ) : EReal := if r = c then 1 else 0

/-- The Laplacian from a scaling table `d` and the adjacency batch, entry by entry: the identity's entry less the
    adjacency entry scaled by its row's and then by its column's factor. -/
def lapOf (d : FVec Ideal SD .f32) (A : FVec Ideal SA .f32) : FVec Ideal SA .f32 :=
  fun j => eye (j 1).val (j 2).val - (d (ix2 (j 0) (j 1)) * A j) * d (ix2 (j 0) (j 2))

/-- The Laplacian of the adjacency batch: the scaling table is the host chain of the degree table. -/
def lap (bc : S0.BroadcastsInDim SD (![] : Fin 0 → Fin SD.rank)) (A : FVec Ideal SA .f32) : FVec Ideal SA .f32 :=
  lapOf (scaleOf bc (degV A)) A

end Cert.Laplacian

end
-- ==== Proof.DegreeValue.lean ====
/-
  The degree table after the first kernel region. The region's grid has 16 points; point t reads rows
  128·t … 128·t+127 of all 16 matrices and writes, for each matrix b and each such row, the sum of the row's
  2048 entries into column 128·t + r of the degree table. Here, on the extended reals:

    * the row sum the body computes, at explicit coordinates (b, r), is Σ_k x[b, r, k]  (`sum_row`, `pay_apply`);
    * entry (b, r, k) of the input block at point t is entry (b, 128·t + r, k) of the adjacency array, and entry
      (b, r) of the output block at point t is entry (b, 128·t + r) of the degree table  (`in_emb`, `out_emb`);
    * so what point t writes back is its block of the ONE table deg[b, i] = Σ_k A[b, i, k]  (`flushed_eq`);
    * every column i of the table lies in the block of point i / 128  (`cover`);
    * hence after the 16 write-backs the table is deg everywhere  (`final_deg`).
-/
import proofs.«150096_j66305705115958_1_alg».proof.Proof.DegreeRegion
import proofs.«150096_j66305705115958_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Degree

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a rank-3 and of a rank-2 rectangle, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The block indices at point `t`: the input block sits at (0, t, 0) and the output block at (0, t). -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = t.val :=
  (by decide +kernel : ∀ t : Fin grid0.N, _)

/-- A point of the grid is below 16. -/
theorem pt_lt (t : Fin cfg0.N) : t.val < 16 := lt_of_lt_of_eq t.isLt N_0

/-- The sum over the last axis of a 16 × 128 × 2048 block, at row (b, r): Σ_k x[b, r, k]. The index over (b, r) with
    k inserted on the last axis is (b, r, k), coordinate by coordinate. -/
theorem sum_row (x : FVec Ideal S16x128x2048 .f32) (h : S16x128x2048.Reduces [2] S16x128) (hφ : FKind.Formats .f32)
    (hacc : (0x00000000#32 : BitVec 32) = FKind.add.neutral .f32 hφ) (b : Fin 16) (r : Fin 128) :
    multiReduction .add [2] S16x128 x 0x00000000#32 h hφ hacc (ix2 b r) = ∑ k : Fin 2048, x (ix3 b r k) := by
  refine (Ideal.multiReduction_add_single x _ h hφ hacc (ix2 b r)).trans ?_
  refine Finset.sum_congr rfl fun k _ => congrArg x ?_
  funext a; apply Fin.ext
  match a with
  | ⟨0, _⟩ => rfl
  | ⟨1, _⟩ => rfl
  | ⟨2, _⟩ => rfl

/-- The body's payload at row (b, r) of its block is that row's sum. -/
theorem pay_apply (x : Vec Ideal S16x128x2048 .f32) (b : Fin 16) (r : Fin 128) :
    k0_pay1 x (ix2 b r) = ∑ k : Fin 2048, x (ix3 b r k) := by
  unfold k0_pay1
  exact sum_row x _ _ _ b r

/-- Entry (b, r, k) of the input block at point `t` is entry (b, 128·t + r, k) of the array: on each axis the
    position is the block index times the block's extent plus the position inside the block. -/
theorem in_emb (t : Fin cfg0.N) (b : Fin 16) (r : Fin 128) (k : Fin 2048) (hr : t.val * 128 + r.val < 2048) :
    ((cfg0.win 0).blk t).view.emb (ix3 b r k) = ix3 b (⟨t.val * 128 + r.val, hr⟩ : Fin 2048) k := by
  obtain ⟨e0, e1, e2, -, -⟩ := idx_facts t
  funext a; apply Fin.ext
  match a with
  | ⟨0, _⟩ => show win0_0.index t (0 : Fin 3) * 16 + 1 * b.val = b.val; omega
  | ⟨1, _⟩ => show win0_0.index t (1 : Fin 3) * 128 + 1 * r.val = t.val * 128 + r.val; omega
  | ⟨2, _⟩ => show win0_0.index t (2 : Fin 3) * 2048 + 1 * k.val = k.val; omega

/-- Entry (b, r) of the output block at point `t` is entry (b, 128·t + r) of the degree table. -/
theorem out_emb (t : Fin cfg0.N) (b : Fin 16) (r : Fin 128) (hr : t.val * 128 + r.val < 2048) :
    ((cfg0.win 1).blk t).view.emb (ix2 b r) = ix2 b (⟨t.val * 128 + r.val, hr⟩ : Fin 2048) := by
  obtain ⟨-, -, -, e3, e4⟩ := idx_facts t
  funext a; apply Fin.ext
  match a with
  | ⟨0, _⟩ => show win0_1.index t (0 : Fin 2) * 16 + 1 * b.val = b.val; omega
  | ⟨1, _⟩ => show win0_1.index t (1 : Fin 2) * 128 + 1 * r.val = t.val * 128 + r.val; omega

/-- At point `t` and row (b, r) of the block: the sum of the staged row is the degree of row 128·t + r of matrix b,
    term by term the same entries of the adjacency array. -/
theorem flushed_at (c : Dev nD) (t : Fin cfg0.N) (b : Fin 16) (r : Fin 128) :
    k0_pay1 (blk V c 0 t) (ix2 b r)
      = Cert.Laplacian.degV (V c main_arg0) (((cfg0.win 1).blk t).view.emb (ix2 b r)) := by
  have hr : t.val * 128 + r.val < 2048 := by have := pt_lt t; have := r.isLt; omega
  rw [pay_apply, out_emb t b r hr]
  unfold Cert.Laplacian.degV Cert.Laplacian.deg
  refine Finset.sum_congr rfl fun k _ => ?_
  exact congrArg (V c main_arg0) (in_emb t b r k hr)

/-- What point `t` writes back is block `t` of the degree table of the adjacency array. -/
theorem flushed_eq (c : Dev nD) (t : Fin cfg0.N) :
    (dat V c).flushed 1 t = ((cfg0.win 1).blk t).view.read (Elt Ideal) (Cert.Laplacian.degV (V c main_arg0)) := by
  show (cfg0.win 1).cut (grid0.coords t) ((dat V c).after 1 t) = _
  rw [after_out]
  unfold rowSums
  rw [View.canon_unit_zero hz2]
  simp only [View.ld_unit_zero (S := S16x128x2048) hz3]
  funext j
  obtain ⟨b, r, rfl⟩ : ∃ (b : Fin 16) (r : Fin 128), j = ix2 b r := ⟨j 0, j 1, eq_ix2 j⟩
  exact flushed_at V c t b r

/-- An index of the degree table is in point `t`'s block iff each coordinate is in the block's range on its axis. -/
theorem mem_blk (t : Fin cfg0.N) (i : S16x2048.Idx) :
    i ∈ ((cfg0.win 1).blk t).view.set ↔ ∀ a : Fin 2, win0_1.index t a * S16x128.size a ≤ (i a).val
      ∧ (i a).val < win0_1.index t a * S16x128.size a + S16x128.size a := by
  show i ∈ ((View.whole main_v0).slice (win0_1.rect t)).set ↔ _
  rw [View.set_slice_whole, Rect.mem_set_unit]
  exact Iff.rfl

/-- Every entry (b, i) of the degree table is written by some point: the point i / 128, whose block holds columns
    128·(i / 128) … 128·(i / 128) + 127 of all 16 rows. -/
theorem cover (i : S16x2048.Idx) :
    ∃ t : Fin cfg0.N, (cfg0.win 1).flush t = true ∧ i ∈ ((cfg0.win 1).blk t).view.set := by
  have h0 : (i 0).val < 16 := (i 0).isLt
  have h1 : (i 1).val < 2048 := (i 1).isLt
  obtain ⟨t, ht⟩ : ∃ t : Fin cfg0.N, t.val = (i 1).val / 128 :=
    ⟨⟨(i 1).val / 128, by rw [show cfg0.N = 16 from N_0]; omega⟩, rfl⟩
  obtain ⟨-, -, -, e3, e4⟩ := idx_facts t
  refine ⟨t, flush0_1 t, ?_⟩
  rw [mem_blk]
  intro a
  match a with
  | ⟨0, _⟩ =>
    show win0_1.index t (0 : Fin 2) * 16 ≤ (i 0).val ∧ (i 0).val < win0_1.index t (0 : Fin 2) * 16 + 16
    omega
  | ⟨1, _⟩ =>
    show win0_1.index t (1 : Fin 2) * 128 ≤ (i 1).val ∧ (i 1).val < win0_1.index t (1 : Fin 2) * 128 + 128
    omega

/-- After all 16 points' write-backs the degree table holds every row's sum: deg[b, i] = Σ_k A[b, i, k]. -/
theorem final_deg (c : Dev nD) :
    (dat V c).arrAt 1 cfg0.N = Cert.Laplacian.degV (V c main_arg0) :=
  (dat V c).arrAt_eq_of_cover 1 (Cert.Laplacian.degV (V c main_arg0)) (fun t _ => flushed_eq V c t) cover

end Cert.KernelIdeal.Degree

end
-- ==== Proof.ScaleValue.lean ====
/-
  The second kernel region, read as values. At grid point (i, j) of the 4 × 8 grid the body stores, at batch b, row r, column q
  of its 16 × 512 × 256 tile,
      δ(512·i + r, 256·j + q) − (d[b, 512·i + r] · A[b, 512·i + r, 256·j + q]) · d[b, 256·j + q],
  where A is the adjacency batch and d the scaling table as the region finds them: the row slice of d at block i supplies the row
  factor, the column slice of the same table at block j the column factor, and the identity's entry is the comparison of the row
  number 512·i + r with the column number 256·j + q, computed in 32-bit words that never wrap (both are below 2^12). That tile is
  the block at (0, i, j) of ONE function of d and A, the Laplacian L[b, R, C] = δ(R, C) − (d[b, R] · A[b, R, C]) · d[b, C]; the 32
  blocks tile the 16 × 2048 × 2048 result, entry (b, R, C) lying in the block of point (R / 512, C / 256); so after the 32
  write-backs the result is L, whatever the table d holds.
-/
import proofs.«150096_j66305705115958_1_alg».proof.Proof.ScaleRegion
import proofs.«150096_j66305705115958_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Scale

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Laplacian (eye lapOf)

section Layout
variable {α : Type}

/-- An `[a, b]` array given a trailing unit axis and broadcast along it reads, at `(p, r, q)`, the operand at `(p, r)`. -/
theorem keep_last_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (r : Fin b) (q : Fin c) :
    broadcastTo ⟨3, ![a, b, c]⟩ (shapeCast ⟨3, ![a, b, 1]⟩ x h1) h2 (ix3 p r q) = x (ix2 p r) := by
  refine (broadcastTo_apply _ h2 (ix3 p r q) (ix3 p r (0 : Fin 1)) fun ax => ?_).trans ?_
  · match ax with
    | ⟨0, _⟩ =>
      show p.val = if a = 1 then 0 else p.val
      split
      · have := p.isLt; omega
      · rfl
    | ⟨1, _⟩ =>
      show r.val = if b = 1 then 0 else r.val
      split
      · have := r.isLt; omega
      · rfl
    | ⟨2, _⟩ => rfl
  · refine shapeCast_apply x h1 _ _ ?_
    rw [Shape.rowMajor_val_three, Shape.rowMajor_val_two]
    show p.val * b + r.val = (p.val * b + r.val) * 1 + 0
    omega

/-- An `[a, c]` array given a middle unit axis and broadcast along it reads, at `(p, r, q)`, the operand at `(p, q)`. -/
theorem keep_mid_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (r : Fin b) (q : Fin c) :
    broadcastTo ⟨3, ![a, b, c]⟩ (shapeCast ⟨3, ![a, 1, c]⟩ x h1) h2 (ix3 p r q) = x (ix2 p q) := by
  refine (broadcastTo_apply _ h2 (ix3 p r q) (ix3 p (0 : Fin 1) q) fun ax => ?_).trans ?_
  · match ax with
    | ⟨0, _⟩ =>
      show p.val = if a = 1 then 0 else p.val
      split
      · have := p.isLt; omega
      · rfl
    | ⟨1, _⟩ => rfl
    | ⟨2, _⟩ =>
      show q.val = if c = 1 then 0 else q.val
      split
      · have := q.isLt; omega
      · rfl
  · refine shapeCast_apply x h1 _ _ ?_
    rw [Shape.rowMajor_val_three, Shape.rowMajor_val_two]
    show p.val * c + q.val = (p.val * 1 + 0) * c + q.val
    rw [Nat.mul_one, Nat.add_zero]

/-- A `[b, c]` array given a leading unit axis and broadcast along it reads, at `(p, r, q)`, the operand at `(r, q)`. -/
theorem keep_lead_apply {a b c : ℕ} (x : (⟨2, ![b, c]⟩ : Shape).Idx → α)
    (h1 : (⟨2, ![b, c]⟩ : Shape).ShapeCasts ⟨3, ![1, b, c]⟩) (h2 : (⟨3, ![1, b, c]⟩ : Shape).Broadcasts ⟨3, ![a, b, c]⟩)
    (p : Fin a) (r : Fin b) (q : Fin c) :
    broadcastTo ⟨3, ![a, b, c]⟩ (shapeCast ⟨3, ![1, b, c]⟩ x h1) h2 (ix3 p r q) = x (ix2 r q) := by
  refine (broadcastTo_apply _ h2 (ix3 p r q) (ix3 (0 : Fin 1) r q) fun ax => ?_).trans ?_
  · match ax with
    | ⟨0, _⟩ => rfl
    | ⟨1, _⟩ =>
      show r.val = if b = 1 then 0 else r.val
      split
      · have := r.isLt; omega
      · rfl
    | ⟨2, _⟩ =>
      show q.val = if c = 1 then 0 else q.val
      split
      · have := q.isLt; omega
      · rfl
  · exact shapeCast_ab_1ab_apply x h1 0 r q

/-- Two words below 2^32 compare equal exactly when the numbers do. -/
theorem cmpi_eq_ofNat (m n : ℕ) (hm : m < 4294967296) (hn : n < 4294967296) :
    IntOp.cmpi .eq (BitVec.ofNat 32 m) (BitVec.ofNat 32 n) = if m = n then 1#1 else 0#1 := by
  unfold IntOp.cmpi
  by_cases h : m = n
  · subst h; simp
  · rw [if_neg h]
    have : BitVec.ofNat 32 m ≠ BitVec.ofNat 32 n := by
      intro e
      have := congrArg BitVec.toNat e
      simp only [BitVec.toNat_ofNat] at this
      omega
    rw [beq_eq_false_iff_ne.mpr this]; rfl

end Layout

/-! ## The identity block, word by word -/

/-- The row number `512·i₀ + r` and the column number `256·i₁ + q`, computed in 32-bit words (neither sum reaches 2^12), compare
    equal exactly when the numbers are equal: the comparison bit, widened and read as an integer, is the identity matrix's entry. -/
theorem eye_word (i0 i1 r q : ℕ) (h0 : i0 < 4) (h1 : i1 < 8) (hr : r < 512) (hq : q < 256) :
    ((((IntOp.cmpi .eq (IntOp.addi (BitVec.ofNat 32 r) (Scalar.muli (BitVec.ofNat 32 i0) 512#32))
        (IntOp.addi (BitVec.ofNat 32 q) (Scalar.muli (BitVec.ofNat 32 i1) 256#32))).setWidth 32).toInt : ℝ) : EReal)
      = eye (512 * i0 + r) (256 * i1 + q) := by
  have hx : IntOp.addi (BitVec.ofNat 32 r) (Scalar.muli (BitVec.ofNat 32 i0) 512#32) = BitVec.ofNat 32 (512 * i0 + r) := by
    show BitVec.ofNat 32 r + BitVec.ofNat 32 i0 * 512#32 = _
    apply BitVec.eq_of_toNat_eq
    simp only [BitVec.toNat_add, BitVec.toNat_mul, BitVec.toNat_ofNat]
    omega
  have hy : IntOp.addi (BitVec.ofNat 32 q) (Scalar.muli (BitVec.ofNat 32 i1) 256#32) = BitVec.ofNat 32 (256 * i1 + q) := by
    show BitVec.ofNat 32 q + BitVec.ofNat 32 i1 * 256#32 = _
    apply BitVec.eq_of_toNat_eq
    simp only [BitVec.toNat_add, BitVec.toNat_mul, BitVec.toNat_ofNat]
    omega
  rw [hx, hy, cmpi_eq_ofNat _ _ (by omega) (by omega)]
  unfold eye
  by_cases h : 512 * i0 + r = 256 * i1 + q
  · rw [if_pos h, if_pos h]
    show (((1 : ℤ) : ℝ) : EReal) = 1
    simp
  · rw [if_neg h, if_neg h]
    show (((0 : ℤ) : ℝ) : EReal) = 0
    simp

/-! ## The payload at an index -/

/-- The stored tile at batch `b`, row `r`, column `q` of grid point `i`: the identity's entry at the tile's place in the matrix, less
    the adjacency entry scaled by its row's factor and then by its column's. -/
theorem pay_apply (i : grid1.Coords) (x0 : Vec Ideal S16x512x256 .f32) (x1 : Vec Ideal S16x512 .f32) (x2 : Vec Ideal S16x256 .f32)
    (b : Fin 16) (r : Fin 512) (q : Fin 256) :
    k1_pay1 i x0 x1 x2 (ix3 b r q)
      = eye (512 * (i 0).val + r.val) (256 * (i 1).val + q.val) - (x1 (ix2 b r) * x0 (ix3 b r q)) * x2 (ix2 b q) := by
  have hi0 : (i 0).val < 4 := (i 0).isLt
  have hi1 : (i 1).val < 8 := (i 1).isLt
  unfold k1_pay1
  dsimp only
  refine (subf_apply _ _ _).trans ?_
  refine congrArg₂ (· - ·) ?_ ?_
  · refine (keep_lead_apply _ _ _ b r q).trans ?_
    show ((((IntOp.cmpi .eq
        (IntOp.addi (iota .tc S512x256 32 [0] iota_S512x256_d0_w32 (ix2 r q)) (Scalar.muli (BitVec.ofNat 32 (i 0).val) 512#32))
        (IntOp.addi (iota .tc S512x256 32 [1] iota_S512x256_d1_w32 (ix2 r q)) (Scalar.muli (BitVec.ofNat 32 (i 1).val) 256#32))).setWidth 32).toInt : ℝ) : EReal) = _
    rw [iota_single_apply, iota_single_apply]
    exact eye_word (i 0).val (i 1).val r.val q.val hi0 hi1 r.isLt q.isLt
  · refine (mulf_apply _ _ _).trans ?_
    refine congrArg₂ (· * ·) ?_ ?_
    · refine (mulf_apply _ _ _).trans ?_
      refine congrArg (· * x0 (ix3 b r q)) ?_
      refine (keep_last_apply _ _ _ b r q).trans ?_
      exact congrFun (shapeCast_self x1 _) _
    · refine (keep_mid_apply _ _ _ b r q).trans ?_
      exact congrFun (shapeCast_self x2 _) _

/-! ## What each point writes back -/

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices at point `t`, decided over the grid: the tile windows sit at block (0, t / 8, t % 8), the row slice at
    (0, t / 8), the column slice at (0, t % 8), and the grid coordinates are (t / 8, t % 8). -/
theorem idx_facts : ∀ t : Fin cfg1.N,
    win1_3.index t (0 : Fin 3) = 0 ∧ win1_3.index t (1 : Fin 3) = t.val / 8 ∧ win1_3.index t (2 : Fin 3) = t.val % 8
    ∧ win1_0.index t (0 : Fin 3) = 0 ∧ win1_0.index t (1 : Fin 3) = t.val / 8 ∧ win1_0.index t (2 : Fin 3) = t.val % 8
    ∧ win1_1.index t (0 : Fin 2) = 0 ∧ win1_1.index t (1 : Fin 2) = t.val / 8
    ∧ win1_2.index t (0 : Fin 2) = 0 ∧ win1_2.index t (1 : Fin 2) = t.val % 8
    ∧ (grid1.coords t 0).val = t.val / 8 ∧ (grid1.coords t 1).val = t.val % 8 :=
  (by decide +kernel : ∀ t : Fin grid1.N, _)

/-- WHAT POINT `t` WRITES BACK is its block of the Laplacian built from the scaling table and the adjacency batch as the region
    finds them. -/
theorem flushed_eq (c : Dev nD) (t : Fin cfg1.N) :
    (dat V c).flushed 3 t = ((cfg1.win 3).blk t).view.read (Elt Ideal) (lapOf (V c main_v3) (V c main_arg0)) := by
  show (cfg1.win 3).cut (grid1.coords t) ((dat V c).after 3 t) = _
  rw [after_out]
  unfold tileOut
  rw [View.canon_unit_zero zeros3]
  simp only [View.ld_unit_zero (S := S16x512x256) zeros3, View.ld_unit_zero (S := S16x512) zeros2, View.ld_unit_zero (S := S16x256) zeros2]
  obtain ⟨o0, o1, o2, a0, a1, a2, r0, r1, c0, c1, g0, g1⟩ := idx_facts t
  funext j
  obtain ⟨b, r, q, rfl⟩ : ∃ (b : Fin 16) (r : Fin 512) (q : Fin 256), j = ix3 b r q := ⟨j 0, j 1, j 2, eq_ix3 j⟩
  have hb : b.val < 16 := b.isLt
  have hr : r.val < 512 := r.isLt
  have hq : q.val < 256 := q.isLt
  show k1_pay1 (grid1.coords t) (blk V c 0 t) (blk V c 1 t) (blk V c 2 t) (ix3 b r q)
    = lapOf (V c main_v3) (V c main_arg0) (((cfg1.win 3).blk t).view.emb (ix3 b r q))
  refine (pay_apply (grid1.coords t) _ _ _ b r q).trans ?_
  have ht : t.val < 32 := Nat.lt_of_lt_of_eq t.isLt N_1
  obtain ⟨R, hR⟩ : ∃ R : Fin 2048, R.val = 512 * (t.val / 8) + r.val := ⟨⟨_, by omega⟩, rfl⟩
  obtain ⟨C, hC⟩ : ∃ C : Fin 2048, C.val = 256 * (t.val % 8) + q.val := ⟨⟨_, by omega⟩, rfl⟩
  have hE : ((cfg1.win 3).blk t).view.emb (ix3 b r q) = ix3 b R C := by
    funext a; apply Fin.ext
    match a with
    | ⟨0, _⟩ => show win1_3.index t (0 : Fin 3) * 16 + 1 * b.val = b.val; omega
    | ⟨1, _⟩ => show win1_3.index t (1 : Fin 3) * 512 + 1 * r.val = R.val; omega
    | ⟨2, _⟩ => show win1_3.index t (2 : Fin 3) * 256 + 1 * q.val = C.val; omega
  have hA : blk V c 0 t (ix3 b r q) = V c main_arg0 (ix3 b R C) := by
    show V c main_arg0 (((cfg1.win 0).blk t).view.emb (ix3 b r q)) = _
    refine congrArg (V c main_arg0) (funext fun a => Fin.ext ?_)
    match a with
    | ⟨0, _⟩ => show win1_0.index t (0 : Fin 3) * 16 + 1 * b.val = b.val; omega
    | ⟨1, _⟩ => show win1_0.index t (1 : Fin 3) * 512 + 1 * r.val = R.val; omega
    | ⟨2, _⟩ => show win1_0.index t (2 : Fin 3) * 256 + 1 * q.val = C.val; omega
  have hRow : blk V c 1 t (ix2 b r) = V c main_v3 (ix2 b R) := by
    show V c main_v3 (((cfg1.win 1).blk t).view.emb (ix2 b r)) = _
    refine congrArg (V c main_v3) (funext fun a => Fin.ext ?_)
    match a with
    | ⟨0, _⟩ => show win1_1.index t (0 : Fin 2) * 16 + 1 * b.val = b.val; omega
    | ⟨1, _⟩ => show win1_1.index t (1 : Fin 2) * 512 + 1 * r.val = R.val; omega
  have hCol : blk V c 2 t (ix2 b q) = V c main_v3 (ix2 b C) := by
    show V c main_v3 (((cfg1.win 2).blk t).view.emb (ix2 b q)) = _
    refine congrArg (V c main_v3) (funext fun a => Fin.ext ?_)
    match a with
    | ⟨0, _⟩ => show win1_2.index t (0 : Fin 2) * 16 + 1 * b.val = b.val; omega
    | ⟨1, _⟩ => show win1_2.index t (1 : Fin 2) * 256 + 1 * q.val = C.val; omega
  rw [hE, hA, hRow, hCol, g0, g1, ← hR, ← hC]
  rfl

/-! ## The blocks cover the result -/

/-- An index of the result is in point `t`'s block iff each coordinate is in the block's range on its axis. -/
theorem mem_blk (t : Fin cfg1.N) (i : S16x2048x2048.Idx) :
    i ∈ ((cfg1.win 3).blk t).view.set ↔ ∀ a : Fin 3, win1_3.index t a * S16x512x256.size a ≤ (i a).val
      ∧ (i a).val < win1_3.index t a * S16x512x256.size a + S16x512x256.size a := by
  show i ∈ ((View.whole main_v4).slice (win1_3.rect t)).set ↔ _
  rw [View.set_slice_whole, Rect.mem_set_unit]
  exact Iff.rfl

/-- Every entry (b, R, C) of the result lies in the block of the point (R / 512, C / 256), the (R / 512)·8 + C / 256-th of the grid. -/
theorem cover (i : S16x2048x2048.Idx) : ∃ t : Fin cfg1.N, (cfg1.win 3).flush t = true ∧ i ∈ ((cfg1.win 3).blk t).view.set := by
  have h0 : (i 0).val < 16 := (i 0).isLt
  have h1 : (i 1).val < 2048 := (i 1).isLt
  have h2 : (i 2).val < 2048 := (i 2).isLt
  obtain ⟨t, tv⟩ : ∃ t : Fin cfg1.N, t.val = (i 1).val / 512 * 8 + (i 2).val / 256 :=
    ⟨⟨(i 1).val / 512 * 8 + (i 2).val / 256, by rw [show cfg1.N = 32 from N_1]; omega⟩, rfl⟩
  obtain ⟨o0, o1, o2, -⟩ := idx_facts t
  refine ⟨t, flush1_3 t, ?_⟩
  rw [mem_blk]
  intro a
  match a with
  | ⟨0, _⟩ => show win1_3.index t (0 : Fin 3) * 16 ≤ (i 0).val ∧ (i 0).val < win1_3.index t (0 : Fin 3) * 16 + 16; omega
  | ⟨1, _⟩ => show win1_3.index t (1 : Fin 3) * 512 ≤ (i 1).val ∧ (i 1).val < win1_3.index t (1 : Fin 3) * 512 + 512; omega
  | ⟨2, _⟩ => show win1_3.index t (2 : Fin 3) * 256 ≤ (i 2).val ∧ (i 2).val < win1_3.index t (2 : Fin 3) * 256 + 256; omega

/-! ## The result after the run -/

/-- After all 32 points' write-backs the result holds the Laplacian built from the scaling table and the adjacency batch as the
    region finds them, whatever the table is. -/
theorem final_lap (c : Dev nD) :
    (dat V c).arrAt 3 cfg1.N = Cert.Laplacian.lapOf (V c main_v3) (V c main_arg0) :=
  (dat V c).arrAt_eq_of_cover 3 (lapOf (V c main_v3) (V c main_arg0)) (fun t _ => flushed_eq V c t) cover

end Cert.KernelIdeal.Scale

end
-- ==== Proof.KernelValue.lean ====
/-
  The idealized kernel's result as ONE function of the adjacency batch. Reading the run's last boundary backwards:
  the result holds what the scaling region's write-backs leave, which is the Laplacian built from the scaling table
  and the adjacency batch the region was entered with; the adjacency batch there is the launch's (nothing writes it);
  the scaling table there is the host chain (the literal one, broadcast, divided by the square root) of the degree
  table; and the degree table is what the degree region's write-backs leave: every row's sum. So the result is the
  specification's Laplacian of the launch's adjacency batch.
-/
import proofs.«150096_j66305705115958_1_alg».proof.Proof.WholeRun
import proofs.«150096_j66305705115958_1_alg».proof.Proof.DegreeValue
import proofs.«150096_j66305705115958_1_alg».proof.Proof.ScaleValue
import proofs.«150096_j66305705115958_1_alg».proof.Proof.Spec
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The scaling region finds the adjacency batch as launched. -/
theorem V2_adj (c : Dev nD) : V2 m c main_arg0 = m ((c : Thread nD τ).loc main_arg0) := W2_adj m c

/-- The host operations find the degree table at every row's sum. -/
theorem V1_deg (c : Dev nD) :
    (V1 m c main_v0 : FVec Ideal S16x2048 .f32) = Cert.Laplacian.degV (m ((c : Thread nD τ).loc main_arg0)) :=
  (W1_arr m c 1).trans (Degree.final_deg (V0 m) c)

/-- The scaling region finds the scaling table at the host chain of the degree table. -/
theorem V2_scale (c : Dev nD) :
    (V2 m c main_v3 : FVec Ideal S16x2048 .f32) = Cert.Laplacian.scaleOf Facts₀.bcast_S_S16x2048 (V1 m c main_v0) := by
  show StableHlo.after hostOps1 (W1 m c) (Proc.devRef .tc main_v3) = _
  after_results
  rfl

/-- The result at the last boundary is the Laplacian of the launch's adjacency batch. -/
theorem result_eq (c : Dev nD) :
    W3 m c (Proc.devRef .tc main_v4) = Cert.Laplacian.lap Facts₀.bcast_S_S16x2048 (m ((c : Thread nD τ).loc main_arg0)) :=
  (W3_result m c).trans <| (Scale.final_lap (V2 m) c).trans <|
    congrArg₂ Cert.Laplacian.lapOf ((V2_scale m c).trans (congrArg _ (V1_deg m c))) (V2_adj m c)

/-- THE VALUE RUN: every weakly fair execution of the idealized kernel's @main terminates, nothing faulting, with the
    result at the Laplacian of the launch's adjacency batch and the adjacency batch as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v4) = Cert.Laplacian.lap Facts₀.bcast_S_S16x2048 (m ((c.tc : Thread nD τ).loc main_arg0))
      ∧ r.2.mem ((c.tc : Thread nD τ).loc main_arg0) = m ((c.tc : Thread nD τ).loc main_arg0)) :=
  (θ_run defs _ _).mono (fun _ h c =>
      ⟨(h c _ (mem_uc main_v4 (by decide))).trans (result_eq m c), (h c _ (mem_uc main_arg0 (by decide))).trans (W3_adj m c)⟩)
    (run_all m ρ)

end Cert.KernelIdeal.Whole

end
-- ==== Proof.RefValue.lean ====
import proofs.«150096_j66305705115958_1_alg».proof.Proof.Gen.ReferenceIdeal.Read
import proofs.«150096_j66305705115958_1_alg».proof.Proof.Spec

/-! The reference's result read index by index: it is the Laplacian of the specification.

    At the entry (b, i, k) the reference subtracts, from the identity matrix's entry δ(i, k) (an integer comparison of
    the row and column counters, converted to a float), the product (d[b, i] · A[b, i, k]) · d[b, k], where d is the host's
    quotient 1 / sqrt applied to the table of row sums. The row sums are the plain finite sums (the initial value of the
    sum is the zero word), and the rest of the chain producing d is, operation for operation, the specification's. -/

noncomputable section

namespace Cert.Laplacian.Ref

open Idealize.ShloMosaic Idealize.ShloMosaic.ValueIdx
open Cert.ReferenceIdeal Cert.ReferenceIdeal.Gen Cert.ReferenceIdeal.Read

/-- The index the row sum reads at its k-th term is (b, i, k). -/
theorem idx_sum (p : S16x2048.Idx) (k : Fin 2048) : idx_main_v0 p k = ix3 (p 0) (p 1) k :=
  funext fun a => Fin.ext (by match a with | ⟨0, _⟩ => rfl | ⟨1, _⟩ => rfl | ⟨2, _⟩ => rfl)

/-- The reference's sum over the last axis is the table of row sums: its initial value is zero. -/
theorem rowsum_eq (A : FVec Ideal S16x2048x2048 .f32) : val_main_v0 (F := Ideal) A = degV A := by
  funext p
  rw [val_main_v0_apply, val_main_cst_apply]
  show Ideal.ofBits .f32 0x00000000#32 + _ = _
  rw [Ideal.ofBits_zero_f32, zero_add]
  exact Finset.sum_congr rfl fun k _ => congrArg A (idx_sum p k)

/-- The reference's table d = 1 / sqrt (row sums) is the specification's scaling table of the row sums. -/
theorem scale_eq (A : FVec Ideal S16x2048x2048 .f32) :
    val_main_v3 (F := Ideal) A = scaleOf Facts₀.bcast_S_S16x2048 (degV A) := by
  unfold val_main_v3 val_main_v1
  rw [rowsum_eq]
  rfl

/-- The comparison of the row counter (plus the zero word) with the column counter, converted to a float, is the
    identity matrix's entry: the counters are below 2048, so their 32-bit words are equal exactly when they are. -/
theorem eye_eq (i k : Fin 2048) : val_main_v15 (F := Ideal) (ix2 i k) = eye i.val k.val := by
  rw [val_main_v15_apply, val_main_v14_apply, val_main_v13_apply, val_main_v12_apply, val_main_c_apply,
    val_main_v10_apply, val_main_v11_apply]
  show ((((IntOp.cmpi .eq (IntOp.addi (BitVec.ofNat 32 i.val) 0#32) (BitVec.ofNat 32 k.val)).toNat : ℝ) : EReal))
    = eye i.val k.val
  unfold eye IntOp.cmpi IntOp.addi
  rw [BitVec.add_zero]
  by_cases h : i.val = k.val
  · rw [if_pos h, h]; simp
  · rw [if_neg h]
    have hne : (BitVec.ofNat 32 i.val == BitVec.ofNat 32 k.val) = false := by
      rw [beq_eq_false_iff_ne]
      intro he
      have := congrArg BitVec.toNat he
      rw [BitVec.toNat_ofNat, BitVec.toNat_ofNat] at this
      have hi := i.isLt
      have hk := k.isLt
      omega
    simp [hne]

/-- The three index compositions of the broadcasts, at (b, i, k). -/
theorem idx_eye (b : Fin 16) (i k : Fin 2048) : idx_main_v16 (idx_main_v17 (ix3 b i k)) = ix2 i k :=
  funext fun a => Fin.ext (by match a with | ⟨0, _⟩ => rfl | ⟨1, _⟩ => rfl)
theorem idx_row (b : Fin 16) (i k : Fin 2048) : idx_main_v4 (idx_main_v5 (ix3 b i k)) = ix2 b i :=
  funext fun a => Fin.ext (by match a with | ⟨0, _⟩ => rfl | ⟨1, _⟩ => rfl)
theorem idx_col (b : Fin 16) (i k : Fin 2048) : idx_main_v7 (idx_main_v8 (ix3 b i k)) = ix2 b k :=
  funext fun a => Fin.ext (by match a with | ⟨0, _⟩ => rfl | ⟨1, _⟩ => rfl)

/-- The reference's last stage is the Laplacian, entry by entry. -/
theorem stage_eq (A : FVec Ideal S16x2048x2048 .f32) :
    val_main_v18 (F := Ideal) A = lap Facts₀.bcast_S_S16x2048 A := by
  funext j
  obtain ⟨b, i, k, rfl⟩ : ∃ (b : Fin 16) (i k : Fin 2048), j = ix3 b i k := ⟨j 0, j 1, j 2, eq_ix3 j⟩
  rw [val_main_v18_apply, val_main_v17_apply, val_main_v16_apply, val_main_v9_apply, val_main_v6_apply,
    val_main_v5_apply, val_main_v4_apply, val_main_v8_apply, val_main_v7_apply, idx_eye, idx_row, idx_col,
    eye_eq, scale_eq]
  rfl

/-- The term the reference's run states for its result is the Laplacian of the argument. -/
theorem result_eq (A : FVec Ideal S16x2048x2048 .f32) :
    subf (broadcastInDim S16x2048x2048 ![0, 1, 2] bcast_S1x2048x2048_S16x2048x2048_0_1_2 (broadcastInDim S1x2048x2048 ![1, 2] bcast_S2048x2048_S1x2048x2048_1_2 (uitofp .f32 (cmpi .eq (addi (iotaInDim S2048x2048 32 0) (broadcastInDim S2048x2048 ![] bcast_S_S2048x2048 (constantI S_ 32 0#32))) (iotaInDim S2048x2048 32 1))))) (mulf (mulf (broadcastInDim S16x2048x2048 ![0, 1, 2] bcast_S16x2048x1_S16x2048x2048_0_1_2 (broadcastInDim S16x2048x1 ![0, 1] bcast_S16x2048_S16x2048x1_0_1 (Host.divf (broadcastInDim S16x2048 ![] bcast_S_S16x2048 (constant S_ .f32 0x3F800000#32)) (Host.sqrt (Host.reduceAdd (A) (constant S_ .f32 0x00000000#32) reducesTo_S16x2048x2048_S16x2048_d2 h_S_))))) (A)) (broadcastInDim S16x2048x2048 ![0, 1, 2] bcast_S16x1x2048_S16x2048x2048_0_1_2 (broadcastInDim S16x1x2048 ![0, 2] bcast_S16x2048_S16x1x2048_0_2 (Host.divf (broadcastInDim S16x2048 ![] bcast_S_S16x2048 (constant S_ .f32 0x3F800000#32)) (Host.sqrt (Host.reduceAdd (A) (constant S_ .f32 0x00000000#32) reducesTo_S16x2048x2048_S16x2048_d2 h_S_))))))
      = Cert.Laplacian.lap (Cert.ReferenceIdeal.Facts₀.bcast_S_S16x2048) A :=
  (val_main_v18_eq (F := Ideal) A).trans (stage_eq A)

end Cert.Laplacian.Ref

end
-- ==== Proof.lean ====
/-
  The certificate of the normalized graph Laplacian  L[b] = I − D^(-1/2) A[b] D^(-1/2),  D = diag (row sums of A[b]),
  over a batch of 16 matrices of size 2048 × 2048: a two-region kernel (row sums over row tiles; then the scaled
  difference over 512 × 256 tiles, the scaling table 1 / sqrt (row sum) computed between the regions by host
  operations) against the broadcasting reference.

  At the ideal instance both programs compute, entry by entry,
      δ(i, j) − (d[b, i] · A[b, i, j]) · d[b, j],   d[b, i] = 1 / sqrt (Σ_k A[b, i, k]),
  with the same grouping of the two products and the same host chain for d, so the only facts about numbers used are
  that a lane reduction and a host reduction over one axis are the plain finite sum (the host's from its initial
  value 0) and that both identity matrices (a compared pair of counters converted to a float) are 0 or 1. No law
  needs the inputs finite: the precondition is never opened.

  The frames of the two kernel programs are proved from each kernel's own run, region by region, over the thread
  state "every unscoped buffer at the boundary's contents"; the reference's frame is its run with the result dropped.
-/
import proofs.«150096_j66305705115958_1_alg».proof.Defs
import proofs.«150096_j66305705115958_1_alg».proof.Proof.Gen.Kernel
import proofs.«150096_j66305705115958_1_alg».proof.Proof.Gen.KernelIdeal
import proofs.«150096_j66305705115958_1_alg».proof.Proof.Gen.ReferenceIdeal
import proofs.«150096_j66305705115958_1_alg».proof.Proof.Gen.Pre_finite_inputs
import proofs.«150096_j66305705115958_1_alg».proof.Proof.Gen.ReferenceIdeal.Run
import proofs.«150096_j66305705115958_1_alg».proof.Proof.BitsWholeRun
import proofs.«150096_j66305705115958_1_alg».proof.Proof.KernelValue
import proofs.«150096_j66305705115958_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves the adjacency batch as launched. -/
theorem frame_kernel : Cert.frame_Kernel := fun m ρ _ => Cert.Kernel.Whole.frame m ρ

/-- So does the idealized kernel. -/
theorem frame_kernelIdeal : Cert.frame_KernelIdeal := fun m ρ _ => Cert.KernelIdeal.Whole.frame m ρ

/-- The reference runs and leaves the adjacency batch as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the adjacency batch both programs end at the Laplacian of that batch. -/
theorem algebraic : Cert.algebraic_KernelIdeal_ReferenceIdeal := by
  intro m ρ m' ρ' _ hagree
  refine ⟨fun c => Cert.Laplacian.lap Cert.KernelIdeal.Facts₀.bcast_S_S16x2048
      (m ((c.tc : Thread Cert.KernelIdeal.nD Cert.KernelIdeal.τ).loc Cert.KernelIdeal.main_arg0)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Laplacian.Ref.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
